-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x2048 : Shape := ⟨2, ![2048, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8x4096x2048 .f32) (main_arg1 : FVec F S2048x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8x4096x2048 : Shape := ⟨3, ![8, 4096, 2048]⟩
abbrev S2048x2048 : Shape := ⟨2, ![2048, 2048]⟩
abbrev S32768x2048 : Shape := ⟨2, ![32768, 2048]⟩
abbrev S512x2048 : Shape := ⟨2, ![512, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S32768x2048, .f32⟩
  | .hbm, ⟨3, _⟩ => ⟨S2048x2048, .bf16⟩
  | .hbm, ⟨4, _⟩ => ⟨S2048x2048, .bf16⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x2048_S32768x2048 : S8x4096x2048.ShapeCasts S32768x2048
  bitsLt_bf16_f32 : FTy.bits .bf16 < FTy.bits .f32
  transposes_S2048x2048_S2048x2048_1_0 : S2048x2048.Transposes [1, 0] S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x2048 : Shape := ⟨2, ![2048, 2048]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S32768x2048, .f32⟩
  | .hbm, ⟨3, _⟩ => ⟨S2048x2048, .f32⟩
  | .hbm, ⟨4, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8x4096x2048_S32768x2048 : S8x4096x2048.ShapeCasts S32768x2048
  transposes_S2048x2048_S2048x2048_1_0 : S2048x2048.Transposes [1, 0] S2048x2048
  dot_S32768x2048_S2048x2048_S32768x2048_1_0_0_1_n_n_wf : DotDims.WF S32768x2048 S2048x2048 S32768x2048 [1] [0] [0] [1] [] []

variable [Facts₀]

def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf

class Facts : Prop extends Facts₀ where

variable [Facts]
-- ==== Proof.TokenRows.lean ====
/-
  What both programs compute, as one function of the two argument arrays.

  The activations `H : [8, 4096, 2048]` are flattened over their two leading axes into `32768` token rows of
  length `2048` (row `r` is `H[r / 4096, r % 4096, ·]`), and every token row is multiplied against every ROW of
  the weight `W : [2048, 2048]`:

      result[r, n] = ∑ k < 2048, H[r / 4096, r % 4096, k] · W[n, k]        (a product with the weight's transpose).

  Over the extended reals this is a plain finite sum of products; no format change and no tiling appears in it.
  The flattening is first kept as an arbitrary matrix `X : [32768, 2048]` (`rowsAgainstRows`), since neither
  program looks inside it; `flatten_apply` then reads the row-major flattening at an index.
-/
import Idealize.ShloMosaic.PureOps.Ideal
import Idealize.ShloMosaic.Lib.ValueIdx
import Idealize.ShloMosaic.Lib.Pipeline.Value

noncomputable section

namespace Cert.TokenRows

open Idealize.ShloMosaic Idealize.ShloMosaic.ValueIdx

/-- The activations as launched: world × tokens-per-rank × hidden. -/
abbrev SAct : Shape := ⟨3, ![8, 4096, 2048]⟩
/-- The flattened token rows, and the result. -/
abbrev STok : Shape := ⟨2, ![32768, 2048]⟩
/-- The weight, one row per output feature. -/
abbrev SWt : Shape := ⟨2, ![2048, 2048]⟩

/-- Entry `(r, n)`: token row `r` of `X` against row `n` of `W`, summed over the hidden axis. -/
def rowsAgainstRows (X : STok.Idx → EReal) (W : SWt.Idx → EReal) : STok.Idx → EReal :=
  fun i => ∑ k : Fin 2048, X (ix2 (n0 := 32768) (n1 := 2048) (i 0) k) * W (ix2 (n0 := 2048) (n1 := 2048) (i 1) k)

theorem rowsAgainstRows_apply (X : STok.Idx → EReal) (W : SWt.Idx → EReal) (r : Fin 32768) (n : Fin 2048) :
    rowsAgainstRows X W (ix2 r n) = ∑ k : Fin 2048, X (ix2 r k) * W (ix2 n k) := rfl

/-- Token row `r` of the flattened activations is row `r % 4096` of rank `r / 4096`. -/
def tokenRows (H : SAct.Idx → EReal) : STok.Idx → EReal :=
  fun i => H (ix3 (n0 := 8) (n1 := 4096) (n2 := 2048)
    ⟨(i 0).val / 4096, by have h : (i 0).val < 32768 := (i 0).isLt; omega⟩
    ⟨(i 0).val % 4096, Nat.mod_lt _ (by decide)⟩ (i 1))

/-- The row-major reshape `[8, 4096, 2048] → [32768, 2048]` IS `tokenRows`: the flat position
    `(a · 4096 + b) · 2048 + k` of `H[a, b, k]` is `r · 2048 + k` exactly when `r = a · 4096 + b`. -/
theorem flatten_eq (H : SAct.Idx → EReal) (h : SAct.ShapeCasts STok) : shapeCast STok H h = tokenRows H := by
  funext i
  refine shapeCast_apply H h i _ ?_
  rw [Shape.rowMajor_val_three, Shape.rowMajor_val_two]
  have h0 : (i 0).val < 32768 := (i 0).isLt
  show ((i 0).val / 4096 * 4096 + (i 0).val % 4096) * 2048 + (i 1).val = (i 0).val * 2048 + (i 1).val
  rw [Nat.div_add_mod']

/-- The result of both programs: the flattened activations against the weight's rows. -/
def tokensAgainstWeightRows (H : SAct.Idx → EReal) (W : SWt.Idx → EReal) : STok.Idx → EReal :=
  rowsAgainstRows (tokenRows H) W

end Cert.TokenRows

end
-- ==== Proof.BlockProduct.lean ====
/-
  One grid point's work, at the extended reals: the block the body stores is the product of the point's
  512 token rows with the whole [2048, 2048] right operand,

      payload[p, q] = ∑ k < 2048, a[p, k] · b[k, q].

  The body narrows the token rows to bf16 before the product and accumulates in f32 from a zero block; over the
  extended reals a change of float format is the identity and the zero accumulator adds nothing, so what is left is
  the plain sum over the contracted axis. The two identity shape casts the body applies to its loads drop out.
-/
import proofs.«408133_j3032246911521_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.TcCoe

/-! ### The product's operand indices: output (p, q) and contraction index k meet the left block at (p, k) and the
    right operand at (k, q) -/

theorem lhs_axis0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_axis1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_axis0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_axis1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- Row `p` of the left block at hidden index `k`. -/
abbrev rowAt (i : S512x2048.Idx) (k : Fin 2048) : S512x2048.Idx := fun a => match a with
  | ⟨0, _⟩ => ⟨(i 0).val, (i 0).isLt⟩
  | ⟨1, _⟩ => ⟨k.val, k.isLt⟩
/-- Column `q` of the right operand at hidden index `k`. -/
abbrev colAt (i : S512x2048.Idx) (k : Fin 2048) : S2048x2048.Idx := fun a => match a with
  | ⟨0, _⟩ => ⟨k.val, k.isLt⟩
  | ⟨1, _⟩ => ⟨(i 1).val, (i 1).isLt⟩

/-- The stored block at an index: the sum over the hidden axis of the token row's entries times the right operand's
    column entries. -/
theorem payload_apply (a : Vec Ideal S512x2048 .f32) (b : Vec Ideal S2048x2048 .bf16) (i : S512x2048.Idx) :
    k0_pay1 (F := Ideal) a b i = ∑ k : Fin 2048, a (rowAt i k) * b (colAt i k) := by
  unfold k0_pay1
  simp only [matmul]
  rw [Ideal.matmul_constant_zero_apply, ← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx i ((ValueIdx.contrEquiv1 dot_S512x2048_S2048x2048_S512x2048_1_0_0_1_n_n 2048 rfl rfl).symm k) = rowAt i k := funext fun a => Fin.ext (by
    match a with
    | ⟨0, _⟩ => exact lhs_axis0 _ _
    | ⟨1, _⟩ => exact (lhs_axis1 _ _).trans hk)
  have er : dot_S512x2048_S2048x2048_S512x2048_1_0_0_1_n_n.rhsIdx i ((ValueIdx.contrEquiv1 dot_S512x2048_S2048x2048_S512x2048_1_0_0_1_n_n 2048 rfl rfl).symm k) = colAt i k := funext fun a => Fin.ext (by
    match a with
    | ⟨0, _⟩ => exact (rhs_axis0 _ _).trans hk
    | ⟨1, _⟩ => exact rhs_axis1 _ _)
  rw [el, er, shapeCast_self, shapeCast_self]
  rfl

end Cert.KernelIdeal.BlockProduct

end
-- ==== Proof.RegionEntry.lean ====
/-
  What the kernel's one region finds in the arrays its two input windows read, over the extended reals.

  Before the region the host flattens the activations row-major into [32768, 2048] token rows, narrows the weight to
  bf16 (the identity on extended reals) and transposes it. So the left array is the flattening of the activations,
  and the right array at (k, n) is the weight at (n, k).
-/
import proofs.«408133_j3032246911521_3_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.RegionEntry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The left window's array: the activations, flattened row-major. -/
theorem tokens_at_entry (c : Dev nD) :
    (V m c main_v0 : S32768x2048.Idx → EReal)
      = shapeCast S32768x2048 (m ((c : Thread nD τ).loc main_arg0)) shapeCasts_S8x4096x2048_S32768x2048 := by
  dsimp only [V, hostOps0]
  after_results <;> rfl

/-- The right window's array: the weight, narrowed and transposed. -/
theorem weight_at_entry (c : Dev nD) :
    (V m c main_v2 : S2048x2048.Idx → EReal)
      = transpose S2048x2048 [1, 0] (truncf (F := Ideal) .bf16 (m ((c : Thread nD τ).loc main_arg1)) bitsLt_bf16_f32) transposes_S2048x2048_S2048x2048_1_0 := by
  dsimp only [V, hostOps0]
  after_results <;> rfl

/-- Read at an index: entry (k, n) of the right array is entry (n, k) of the weight as launched. -/
theorem weight_at_entry_apply (c : Dev nD) (k n : Fin 2048) :
    (V m c main_v2 : S2048x2048.Idx → EReal) (ix2 k n)
      = (m ((c : Thread nD τ).loc main_arg1) : S2048x2048.Idx → EReal) (ix2 n k) := by
  rw [weight_at_entry]
  refine (transpose_apply [1, 0] _ transposes_S2048x2048_S2048x2048_1_0 (ix2 k n) (ix2 n k) (fun b => match b with
    | ⟨0, _⟩ => rfl
    | ⟨1, _⟩ => rfl)).trans ?_
  rfl

end Cert.KernelIdeal.RegionEntry

end
-- ==== Proof.KernelResult.lean ====
/-
  The kernel's result array, over the extended reals, is the flattened activations against the weight's rows.

  The region walks 64 grid points. Point `t` reads rows 512·t … 512·t + 511 of the flattened activations (its left
  block), the whole transposed weight (its right block, the same at every point), and writes rows
  512·t … 512·t + 511 of the result: the block product of the two. Entry (p, q) of that block is
  ∑ k, flat[512·t + p, k] · transposed[k, q] = ∑ k, flat[512·t + p, k] · weight[q, k], which is entry
  (512·t + p, q) of the specification. The 64 row bands tile the 32768 rows (row r lies in band r / 512), so the
  whole array is the specification.
-/
import proofs.«408133_j3032246911521_3_alg».proof.Proof.Gen.KernelIdeal.Value
import proofs.«408133_j3032246911521_3_alg».proof.Proof.TokenRows
import proofs.«408133_j3032246911521_3_alg».proof.Proof.BlockProduct
import proofs.«408133_j3032246911521_3_alg».proof.Proof.RegionEntry
import Idealize.ShloMosaic.Lib.Pipeline.Value
import Idealize.ShloMosaic.Lib.ValueIdx

noncomputable section

namespace Cert.KernelIdeal.Result

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.TokenRows

variable (m : (ℓ : Loc nD τ sig) → Buf (Elt Ideal) ℓ) (ρ : Dev nD → PrngReg)

theorem zero_offsets : (![0, 0] : Fin 2 → Nat) = fun _ => 0 := funext fun a => by fin_cases a <;> rfl

/-- The printed block indices over the 64 points: the left and the result windows move down one band of rows per
    point and stay in column block 0; the right window stays on its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t` is the band of rows 512·t … 512·t + 511 of the flattened activations. -/
theorem tokens_block (c : Dev nD) (t : Fin cfg0.N) (y : S512x2048.Idx) (i : S32768x2048.Idx)
    (h0 : (i 0).val = t.val * 512 + (y 0).val) (h1 : (i 1).val = (y 1).val) :
    (iblk m c 0 t : Vec Ideal S512x2048 .f32) y = (V m c main_v0 : S32768x2048.Idx → EReal) i := by
  obtain ⟨e00, e01, -⟩ := block_indices t
  show (V m c main_v0 : S32768x2048.Idx → EReal) (((cfg0.win 0).blk t).view.emb y) = _
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 2048 + 1 * (y 1).val = (i 1).val; omega

/-- The right block at every point is the whole transposed weight. -/
theorem weight_block (c : Dev nD) (t : Fin cfg0.N) (y : S2048x2048.Idx) (i : S2048x2048.Idx)
    (h0 : (i 0).val = (y 0).val) (h1 : (i 1).val = (y 1).val) :
    (iblk m c 1 t : Vec Ideal S2048x2048 .bf16) y = (V m c main_v2 : S2048x2048.Idx → EReal) i := by
  obtain ⟨-, -, e10, e11, -⟩ := block_indices t
  show (V m c main_v2 : S2048x2048.Idx → EReal) (((cfg0.win 1).blk t).view.emb y) = _
  refine congrArg _ (funext fun a => Fin.ext ?_)
  match a with
  | ⟨0, _⟩ => show win0_1.index t (0 : Fin 2) * 2048 + 1 * (y 0).val = (i 0).val; omega
  | ⟨1, _⟩ => show win0_1.index t (1 : Fin 2) * 2048 + 1 * (y 1).val = (i 1).val; omega

/-- What point `t` writes back is band `t` of the specification, of the flattened activations as the region finds
    them and the weight as launched. -/
theorem flushed_eq (c : Dev nD) (t : Fin cfg0.N) :
    (dats m 0 c).flushed 2 t = ((cfg0.win 2).blk t).view.read (Elt Ideal)
      (rowsAgainstRows (V m c main_v0) (m ((c : Thread nD τ).loc main_arg1))) := by
  rw [flushed2]
  unfold out0_2
  rw [View.canon_unit_zero zero_offsets]
  simp only [View.ld_unit_zero (S := S512x2048) zero_offsets, View.ld_unit_zero (S := S2048x2048) zero_offsets]
  obtain ⟨-, -, -, -, e20, e21⟩ := block_indices t
  funext j
  show k0_pay1 (F := Ideal) (iblk m c 0 t) (iblk m c 1 t) j
    = rowsAgainstRows (V m c main_v0) (m ((c : Thread nD τ).loc main_arg1)) (((cfg0.win 2).blk t).view.emb j)
  refine (BlockProduct.payload_apply (iblk m c 0 t) (iblk m c 1 t) j).trans ?_
  unfold rowsAgainstRows
  refine Finset.sum_congr rfl fun k _ => ?_
  have r0 : ((((cfg0.win 2).blk t).view.emb j) 0).val = t.val * 512 + (j 0).val := by
    show win0_2.index t (0 : Fin 2) * 512 + 1 * (j 0).val = _; omega
  have r1 : ((((cfg0.win 2).blk t).view.emb j) 1).val = (j 1).val := by
    show win0_2.index t (1 : Fin 2) * 2048 + 1 * (j 1).val = _; omega
  refine congrArg₂ (· * ·) ?_ ?_
  · exact tokens_block m c t (BlockProduct.rowAt j k) _ r0 rfl
  · rw [weight_block m c t (BlockProduct.colAt j k) (ix2 (n0 := 2048) (n1 := 2048) k ⟨(j 1).val, (j 1).isLt⟩) rfl rfl,
      RegionEntry.weight_at_entry_apply]
    exact congrArg _ (funext fun a => Fin.ext (by
      match a with
      | ⟨0, _⟩ => exact r1.symm
      | ⟨1, _⟩ => rfl))

/-- An index lies in point `t`'s band iff each coordinate is in the band's range on its axis. -/
theorem mem_band (t : Fin cfg0.N) (i : S32768x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v3).slice (win0_2.rect t)).set ↔ _
  rw [View.set_slice_whole, Rect.mem_set_unit]
  exact Iff.rfl

/-- Every index of the result is in some point's band: row r is in band r / 512. -/
theorem covered (i : S32768x2048.Idx) :
    ∃ t : Fin cfg0.N, (cfg0.win 2).flush t = true ∧ i ∈ ((cfg0.win 2).blk t).view.set := by
  have h0 : (i 0).val < 32768 := (i 0).isLt
  have h1 : (i 1).val < 2048 := (i 1).isLt
  have hN : cfg0.N = 64 := N_0
  have hlt : (i 0).val / 512 < cfg0.N := by rw [hN]; omega
  refine ⟨⟨(i 0).val / 512, hlt⟩, flush0_2 _, ?_⟩
  rw [mem_band]
  obtain ⟨-, -, -, -, e20, e21⟩ := block_indices ⟨(i 0).val / 512, hlt⟩
  have e20' : win0_2.index ⟨(i 0).val / 512, hlt⟩ (0 : Fin 2) = (i 0).val / 512 := e20
  intro a
  match a with
  | ⟨0, _⟩ =>
    show win0_2.index ⟨(i 0).val / 512, hlt⟩ (0 : Fin 2) * 512 ≤ (i 0).val ∧ (i 0).val < win0_2.index ⟨(i 0).val / 512, hlt⟩ (0 : Fin 2) * 512 + 512
    omega
  | ⟨1, _⟩ =>
    show win0_2.index ⟨(i 0).val / 512, hlt⟩ (1 : Fin 2) * 2048 ≤ (i 1).val ∧ (i 1).val < win0_2.index ⟨(i 0).val / 512, hlt⟩ (1 : Fin 2) * 2048 + 2048
    omega

/-- The result array after the run is the specification of the two argument arrays. -/
theorem final (c : Dev nD) :
    (dats m 0 c).arrAt 2 cfg0.N
      = tokensAgainstWeightRows (m ((c : Thread nD τ).loc main_arg0)) (m ((c : Thread nD τ).loc main_arg1)) := by
  rw [(dats m 0 c).arrAt_eq_of_cover 2 (rowsAgainstRows (V m c main_v0) (m ((c : Thread nD τ).loc main_arg1)))
    (fun t _ => flushed_eq m c t) covered]
  unfold tokensAgainstWeightRows
  rw [RegionEntry.tokens_at_entry, flatten_eq]

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v3)
        = tokensAgainstWeightRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Result

end
-- ==== Proof.ReferenceRows.lean ====
/-
  The reference's result, over the extended reals, is the flattened activations against the weight's rows.

  The reference flattens the activations, transposes the weight and takes one `dot_general` contracting the hidden
  axis. Read at (r, n) that is ∑ k, flat[r, k] · transposed[k, n], and the transposed weight at (k, n) is the weight at
  (n, k): the sum of the specification, term by term.
-/
import proofs.«408133_j3032246911521_3_alg».proof.Proof.Gen.ReferenceIdeal.Read
import proofs.«408133_j3032246911521_3_alg».proof.Proof.TokenRows

noncomputable section

namespace Cert.ReferenceIdeal.RefValue

open Cert.ReferenceIdeal Cert.ReferenceIdeal.Gen Cert.ReferenceIdeal.Read
open Idealize.ShloMosaic Idealize.ShloMosaic.ValueIdx Cert.TokenRows

/-- The reference's term for its result is the specification of the two argument arrays. -/
theorem reference_eq (H : (⟨S8x4096x2048, .f32⟩ : BufTy).Contents (Elt Ideal)) (W : (⟨S2048x2048, .f32⟩ : BufTy).Contents (Elt Ideal)) :
    val_main_v2 (F := Ideal) H W = tokensAgainstWeightRows H W := by
  funext i
  rw [val_main_v2_apply]
  unfold tokensAgainstWeightRows rowsAgainstRows
  refine Finset.sum_congr rfl fun k _ => ?_
  rw [val_main_v1_apply]
  have hflat : val_main_v0 (F := Ideal) H = tokenRows H := flatten_eq H shapeCasts_S8x4096x2048_S32768x2048
  have e1 : lidx_main_v2 i k = ix2 (n0 := 32768) (n1 := 2048) (i 0) k := funext fun a => by
    match a with
    | ⟨0, _⟩ => rfl
    | ⟨1, _⟩ => rfl
  have e2 : idx_main_v1 (ridx_main_v2 i k) = ix2 (n0 := 2048) (n1 := 2048) (i 1) k := funext fun a => by
    match a with
    | ⟨0, _⟩ => rfl
    | ⟨1, _⟩ => rfl
  rw [hflat, e1, e2]

end Cert.ReferenceIdeal.RefValue

end
-- ==== Proof.lean ====
/-
  The certificate of a tiled matrix product against its one-line reference, over the extended reals.

  Both programs flatten the activations [8, 4096, 2048] into 32768 token rows and multiply them against the ROWS of
  the weight [2048, 2048]:  result[r, n] = ∑ k < 2048, tokens[r, k] · weight[n, k]  (Proof/TokenRows.lean).

  The kernel narrows the weight to bf16 and transposes it once on the host, then walks 64 grid points; point t
  narrows its 512 token rows and stores their product with the whole transposed weight as rows 512·t … 512·t + 511 of
  the result. Over the extended reals narrowing is the identity and the zero accumulator adds nothing
  (Proof/BlockProduct.lean); the transposed weight at (k, n) is the weight at (n, k) (Proof/RegionEntry.lean); the 64
  row bands tile the result (Proof/KernelResult.lean). The reference transposes the weight and takes one
  contraction over the hidden axis, which read at an index is the same sum (Proof/ReferenceRows.lean). The sums
  agree term by term, so no finiteness of the inputs is used.

  The three frames are the generated runs; the idealization rewrote nothing, so `preserves` is `True`.
-/
import proofs.«408133_j3032246911521_3_alg».proof.Defs
import proofs.«408133_j3032246911521_3_alg».proof.Proof.Gen.Kernel
import proofs.«408133_j3032246911521_3_alg».proof.Proof.Gen.Kernel.Skeleton
import proofs.«408133_j3032246911521_3_alg».proof.Proof.Gen.Kernel.Launch
import proofs.«408133_j3032246911521_3_alg».proof.Proof.Gen.Kernel.Points
import proofs.«408133_j3032246911521_3_alg».proof.Proof.Gen.Kernel.Frame
import proofs.«408133_j3032246911521_3_alg».proof.Proof.Gen.KernelIdeal
import proofs.«408133_j3032246911521_3_alg».proof.Proof.Gen.KernelIdeal.Skeleton
import proofs.«408133_j3032246911521_3_alg».proof.Proof.Gen.KernelIdeal.Launch
import proofs.«408133_j3032246911521_3_alg».proof.Proof.Gen.KernelIdeal.Points
import proofs.«408133_j3032246911521_3_alg».proof.Proof.Gen.KernelIdeal.Frame
import proofs.«408133_j3032246911521_3_alg».proof.Proof.Gen.ReferenceIdeal
import proofs.«408133_j3032246911521_3_alg».proof.Proof.Gen.Pre_finite_inputs
import proofs.«408133_j3032246911521_3_alg».proof.Proof.Gen.KernelIdeal.Value
import proofs.«408133_j3032246911521_3_alg».proof.Proof.Gen.ReferenceIdeal.Run
import proofs.«408133_j3032246911521_3_alg».proof.Proof.Gen.ReferenceIdeal.Read
import proofs.«408133_j3032246911521_3_alg».proof.Proof.TokenRows
import proofs.«408133_j3032246911521_3_alg».proof.Proof.KernelResult
import proofs.«408133_j3032246911521_3_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is three host operations in a row; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at
    `tokensAgainstWeightRows` of the activations and the weight: the kernel band by band, the reference by its one
    contraction. -/
theorem algebraic : Cert.algebraic_KernelIdeal_ReferenceIdeal := by
  intro m ρ m' ρ' _ hagree
  refine ⟨fun c => Cert.TokenRows.tokensAgainstWeightRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
